-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x16384 : Shape := ⟨3, ![2, 4096, 16384]⟩
abbrev S4096x16384 : Shape := ⟨2, ![4096, 16384]⟩
abbrev S4096 : Shape := ⟨1, ![4096]⟩
abbrev S_ : Shape := ⟨0, ![]⟩

class Facts : Prop where
  bcast_S_S2x4096x16384 : S_.BroadcastsInDim S2x4096x16384 (![] : Fin 0 → Fin S2x4096x16384.rank)
  reducesTo_S2x4096x16384_S_d0_1_2 : S2x4096x16384.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x4096x16384 .f32) (main_arg1 : FVec F S4096x16384 .f32) (main_arg2 : FVec F S4096 .f32) : IVec S_ 1 :=
  let main_v0 : FVec F S2x4096x16384 .f32 := Host.absf main_arg0
  let main_cst : FVec F S_ .f32 := constant S_ .f32 0x7F800000#32
  let main_v1 : FVec F S2x4096x16384 .f32 := broadcastInDim S2x4096x16384 ![] bcast_S_S2x4096x16384 main_cst
  let main_v2 : IVec S2x4096x16384 1 := cmpf .olt main_v0 main_v1
  let main_c : IVec S_ 1 := constantI S_ 1 1#1
  let main_v3 : IVec S_ 1 := (fun x v => Host.reduce IntOp.andi x v reducesTo_S2x4096x16384_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x4096x16384 : Shape := ⟨3, ![2, 4096, 16384]⟩
abbrev S4096x16384 : Shape := ⟨2, ![4096, 16384]⟩
abbrev S4096 : Shape := ⟨1, ![4096]⟩
abbrev S8192x16384 : Shape := ⟨2, ![8192, 16384]⟩
abbrev S1x4096 : Shape := ⟨2, ![1, 4096]⟩
abbrev S8192x4096 : Shape := ⟨2, ![8192, 4096]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩
abbrev S2x4096x4096 : Shape := ⟨3, ![2, 4096, 4096]⟩

abbrev nBuf : Space → Nat
  | .hbm => 7
  | .vmem => 9
  | .smem => 0
  | _ => 0

abbrev bufTy : (tb : Table) → Fin (tcTables nBuf tb) → BufTy
  | .hbm, ⟨0, _⟩ => ⟨S2x4096x16384, .f32⟩
  | .hbm, ⟨1, _⟩ => ⟨S4096x16384, .f32⟩
  | .hbm, ⟨2, _⟩ => ⟨S4096, .f32⟩
  | .hbm, ⟨3, _⟩ => ⟨S8192x16384, .f32⟩
  | .hbm, ⟨4, _⟩ => ⟨S1x4096, .f32⟩
  | .hbm, ⟨5, _⟩ => ⟨S8192x4096, .f32⟩
  | .hbm, ⟨6, _⟩ => ⟨S2x4096x4096, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2x4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x4096x16384_S8192x16384 : S2x4096x16384.ShapeCasts S8192x16384
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S2x4096x4096 : S8192x4096.ShapeCasts S2x4096x4096
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x16384.size a
  hwx0_0 : ∀ i : grid0.Coords, EltTy.bits .f32 = 32 ∨ (Rect.block (s := S8192x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x16384.size a
  hwx0_1 : ∀ i : grid0.Coords, EltTy.bits .f32 = 32 ∨ (Rect.block (s := S4096x16384) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x4096x16384 : Shape := ⟨3, ![2, 4096, 16384]⟩
abbrev S4096x16384 : Shape := ⟨2, ![4096, 16384]⟩
abbrev S4096 : Shape := ⟨1, ![4096]⟩
abbrev S2x4096x4096 : Shape := ⟨3, ![2, 4096, 4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x16384, .f32⟩
  | .hbm, ⟨1, _⟩ => ⟨S4096x16384, .f32⟩
  | .hbm, ⟨2, _⟩ => ⟨S4096, .f32⟩
  | .hbm, ⟨3, _⟩ => ⟨S2x4096x4096, .f32⟩
  | .hbm, ⟨4, _⟩ => ⟨S1x1x4096, .f32⟩
  | .hbm, ⟨5, _⟩ => ⟨S2x4096x4096, .f32⟩
  | .hbm, ⟨6, _⟩ => ⟨S2x4096x4096, .f32⟩
  | _, _ => ⟨S2x4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x16384_S4096x16384_S2x4096x4096_2_1_01_0_n_n_wf : DotDims.WF S2x4096x16384 S4096x16384 S2x4096x4096 [2] [1] [0, 1] [0] [] []

variable [Facts₀]

def dot_S2x4096x16384_S4096x16384_S2x4096x4096_2_1_01_0_n_n : DotDims S2x4096x16384 S4096x16384 S2x4096x4096 where
  lhsContracting := [2]
  rhsContracting := [1]
  lhsNonContracting := [0, 1]
  rhsNonContracting := [0]
  lhsBatch := []
  rhsBatch := []
  wf := dot_S2x4096x16384_S4096x16384_S2x4096x4096_2_1_01_0_n_n_wf

class Facts : Prop extends Facts₀ where

variable [Facts]
-- ==== Proof.BlockSum.lean ====
/-
  A sum over a long axis, taken block by block.

  A matrix product whose contraction axis is cut into consecutive blocks is accumulated one block at a
  time. What the accumulator holds after some blocks is a PREFIX of the full sum: the sum of the terms
  whose index lies below the blocks' total length. Stated over any commutative additive monoid (the
  extended reals are one: no finiteness is needed, only that addition is associative and commutative),
  with the summand extended by zero past the axis so that prefixes of any length are defined.
-/
import Mathlib.Algebra.BigOperators.Fin
import Mathlib.Algebra.BigOperators.Group.Finset.Basic

namespace Cert.BlockSum

variable {M : Type*} [AddCommMonoid M]

/-- The summand extended by zero past the end of the axis. -/
def ext0 {n : ℕ} (f : Fin n → M) (k : ℕ) : M := if h : k < n then f ⟨k, h⟩ else 0

/-- The prefix sum: the terms of index below `len`. -/
def pre {n : ℕ} (f : Fin n → M) (len : ℕ) : M := ∑ k ∈ Finset.range len, ext0 f k

/-- The empty prefix is zero. -/
theorem pre_zero {n : ℕ} (f : Fin n → M) : pre f 0 = 0 := Finset.sum_range_zero _

/-- One more block: a prefix of length `a` followed by the `w` terms at `a, a+1, …, a+w-1` is the prefix of
    length `a + w`, as long as the block lies inside the axis. -/
theorem pre_add_block {n : ℕ} (f : Fin n → M) (a w : ℕ) (h : a + w ≤ n) :
    pre f (a + w) = pre f a + ∑ q : Fin w, f ⟨a + q.val, by have := q.isLt; omega⟩ := by
  unfold pre
  rw [Finset.sum_range_add, Finset.sum_range (fun x => ext0 f (a + x))]
  congr 1
  refine Finset.sum_congr rfl fun q _ => ?_
  unfold ext0
  rw [dif_pos (by have := q.isLt; omega)]

/-- The prefix of the axis's whole length is the full sum. -/
theorem pre_full {n : ℕ} (f : Fin n → M) : pre f n = ∑ k : Fin n, f k := by
  unfold pre
  rw [Finset.sum_range]
  refine Finset.sum_congr rfl fun k _ => ?_
  unfold ext0
  rw [dif_pos k.isLt]

end Cert.BlockSum
-- ==== Proof.Pieces.lean ====
/-
  What each control case of the kernel body leaves behind, read as a value.

  The body has three control cases along the contraction axis of the grid. At the first step of a run it
  clears the accumulator and then adds the step's partial product; at a middle step it adds the step's
  partial product to what the step before left; at the last step it does the same and then stores the
  accumulator plus the bias row into the output block. Each case's stores cover their buffer whole, so the
  buffer's contents afterwards are simply the stored value: the accumulator ends at
  `partial product + previous accumulator` (previous = the zero block at a first step), the output block at
  `accumulator + bias`. Stated for any float family, since nothing here computes.
-/
import proofs.«171852_j46222438039739_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- A middle step leaves in the accumulator the step's partial product added to what it found there. -/
theorem acc_mid (c : Dev nD) (i : grid0.Coords) (a3 : Memref sig .tc .vmem S512x2048 .f32) (h3 : a3.IsWhole) (a4 : Memref sig .tc .vmem S1024x2048 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : ¬cond0_1 i)
    (x0 : Vec F S512x2048 .f32) (x1 : Vec F S1024x2048 .f32) (x2 : Vec F S1x1024 .f32) (xs0 : Vec F S512x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h5.read_unread, h7.read_unread, View.ld_unit_zero (S := S512x2048) hz, View.ld_unit_zero (S := S1024x2048) hz, View.ld_unit_zero (S := S1x1024) hz, View.ld_unit_zero (S := S512x1024) hz, View.readCov_unit_zero (S := S512x1024) _ hz]

/-- The last step leaves the same in the accumulator. -/
theorem acc_last (c : Dev nD) (i : grid0.Coords) (a3 : Memref sig .tc .vmem S512x2048 .f32) (h3 : a3.IsWhole) (a4 : Memref sig .tc .vmem S1024x2048 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x2048 .f32) (x1 : Vec F S1024x2048 .f32) (x2 : Vec F S1x1024 .f32) (xs0 : Vec F S512x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread, View.ld_unit_zero (S := S512x2048) hz, View.ld_unit_zero (S := S1024x2048) hz, View.ld_unit_zero (S := S1x1024) hz, View.ld_unit_zero (S := S512x1024) hz, View.readCov_unit_zero (S := S512x1024) _ hz]

/-- The last step stores into the output block the accumulator it has just updated, plus the bias row. -/
theorem out_last (c : Dev nD) (i : grid0.Coords) (a3 : Memref sig .tc .vmem S512x2048 .f32) (h3 : a3.IsWhole) (a4 : Memref sig .tc .vmem S1024x2048 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x2048 .f32) (x1 : Vec F S1024x2048 .f32) (x2 : Vec F S1x1024 .f32) (xs0 : Vec F S512x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread, View.ld_unit_zero (S := S512x2048) hz, View.ld_unit_zero (S := S1024x2048) hz, View.ld_unit_zero (S := S1x1024) hz, View.ld_unit_zero (S := S512x1024) hz, View.readCov_unit_zero (S := S512x1024) _ hz]

/-- A first step clears the accumulator, reads the zero block back, and leaves the step's partial product
    added to it. -/
theorem acc_first (c : Dev nD) (i : grid0.Coords) (a3 : Memref sig .tc .vmem S512x2048 .f32) (h3 : a3.IsWhole) (a4 : Memref sig .tc .vmem S1024x2048 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : cond0_0 i) (hc1 : ¬cond0_1 i)
    (x0 : Vec F S512x2048 .f32) (x1 : Vec F S1024x2048 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) hz, View.readCov_unit_zero (S := S512x1024) _ hz]
  simp only [View.readAt_eq_ld, h3.read_unread, h4.read_unread, h5.read_unread, h7.read_unread, View.ld_unit_zero (S := S512x2048) hz, View.ld_unit_zero (S := S1024x2048) hz, View.ld_unit_zero (S := S1x1024) hz, View.ld_unit_zero (S := S512x1024) hz, View.readCov_unit_zero (S := S512x1024) _ hz]

end Cert.KernelIdeal.Pieces
end
-- ==== Proof.Payload.lean ====
/-
  The body's arithmetic, read at one coordinate over the extended reals.

  At the ideal instance rounding to bf16 is the identity and the matrix unit computes the exact sum of
  products, so the three stored values read, at row `p` and column `q` of the 512 x 1024 block:
    the cleared accumulator          0
    the accumulator's update         acc p q + sum over k < 2048 of x p k * w q k
    the output block                 acc p q + bias q
  where `x` is the 512 x 2048 block of the left operand and `w` the 1024 x 2048 block of the right one
  (contracted along its second axis: the product is x times the transpose of w).
-/
import proofs.«171852_j46222438039739_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Pay
open Cert.KernelIdeal Cert.KernelIdeal.Gen

/-! The block product's operand indices: output coordinate (p, q) and contraction coordinate k read the
    left operand at (p, k) and the right operand at (q, k). -/

theorem lhs_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem rhs_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The block product into a zero accumulator, at (p, q): the sum over the 2048 contraction coordinates. -/
theorem blockProduct_apply (a : FVec Ideal S512x2048 .bf16) (b : FVec Ideal S1024x2048 .bf16) (p : Fin 512) (q : Fin 1024) :
    matmul dot_S512x2048_S1024x2048_S512x1024_1_1_0_0_n_n none a b (constant (F := Ideal) S512x1024 .f32 0x00000000#32) (ix2 p q)
      = ∑ k : Fin 2048, a (ix2 p k) * b (ix2 q k) := by
  simp only [matmul]
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 p q) ((ValueIdx.contrEquiv1 dot_S512x2048_S1024x2048_S512x1024_1_1_0_0_n_n 2048 rfl rfl).symm k) = ix2 p k := funext fun a => Fin.ext (by
    match a with
    | ⟨0, _⟩ => exact lhs_0 _ _
    | ⟨1, _⟩ => exact (lhs_1 _ _).trans hk)
  have er : dot_S512x2048_S1024x2048_S512x1024_1_1_0_0_n_n.rhsIdx (ix2 p q) ((ValueIdx.contrEquiv1 dot_S512x2048_S1024x2048_S512x1024_1_1_0_0_n_n 2048 rfl rfl).symm k) = ix2 q k := funext fun a => Fin.ext (by
    match a with
    | ⟨0, _⟩ => exact rhs_0 _ _
    | ⟨1, _⟩ => exact (rhs_1 _ _).trans hk)
  rw [el, er]

/-- The cleared accumulator is zero everywhere. -/
theorem cleared_apply (j : S512x1024.Idx) : (k0_pay1 (F := Ideal)) j = 0 := by
  unfold k0_pay1
  simp only [shapeCast_self]
  exact Ideal.ofBits_zero_f32

/-- The accumulator's update at (p, q). -/
theorem update_apply (x0 : Vec Ideal S512x2048 .f32) (x1 : Vec Ideal S1024x2048 .f32) (acc : Vec Ideal S512x1024 .f32)
    (p : Fin 512) (q : Fin 1024) :
    k0_pay2 (F := Ideal) x0 x1 acc (ix2 p q) = acc (ix2 p q) + ∑ k : Fin 2048, x0 (ix2 p k) * x1 (ix2 q k) := by
  unfold k0_pay2
  simp only [shapeCast_self]
  exact congrArg (acc (ix2 p q) + ·) (blockProduct_apply _ _ p q)

/-- The output block at (p, q): the accumulator plus the bias row's entry at q. -/
theorem output_apply (acc : Vec Ideal S512x1024 .f32) (b : Vec Ideal S1x1024 .f32) (p : Fin 512) (q : Fin 1024) :
    k0_pay3 (F := Ideal) acc b (ix2 p q) = acc (ix2 p q) + b (ix2 (0 : Fin 1) q) := by
  unfold k0_pay3
  simp only [shapeCast_self]
  exact congrArg (acc (ix2 p q) + ·) (broadcastTo_1b_ab_apply b _ p q)

end Cert.KernelIdeal.Pay
end
-- ==== Proof.Blocks.lean ====
/-
  The windows' blocks, read at a coordinate of the arrays they are cut from.

  Grid point `t` (of 16 x 4 x 8 = 512, the contraction axis fastest) is row block `t / 32`, column block
  `t / 8 % 4` and contraction step `t % 8`. At that point the left operand's window holds rows
  `512 (t / 32) + p`, columns `2048 (t % 8) + k` of the 8192 x 16384 array; the right operand's window holds
  rows `1024 (t / 8 % 4) + q`, columns `2048 (t % 8) + k` of the 4096 x 16384 array; the bias window holds
  columns `1024 (t / 8 % 4) + q` of the 1 x 4096 row; and the output window is rows `512 (t / 32) + p`,
  columns `1024 (t / 8 % 4) + q` of the 8192 x 4096 result.
-/
import proofs.«171852_j46222438039739_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen
variable {F : FTy → Type} [FloatOps F]
variable (m : (ℓ : Loc nD τ sig) → Buf (Elt F) ℓ)

/-- The left operand as the region finds it: the input with its two leading axes merged. -/
abbrev xarr (c : Dev nD) : Vec F S8192x16384 .f32 := V m c main_v0
/-- The right operand as the region finds it. -/
abbrev warr (c : Dev nD) : Vec F S4096x16384 .f32 := V m c main_arg1
/-- The bias as the region finds it: one row. -/
abbrev brow (c : Dev nD) : Vec F S1x4096 .f32 := V m c main_v1

/-- The three input windows' blocks at point `t`, at their literal shapes. -/
abbrev xblk (c : Dev nD) (t : Fin cfg0.N) : Vec F S512x2048 .f32 := iblk m c 0 t
abbrev wblk (c : Dev nD) (t : Fin cfg0.N) : Vec F S1024x2048 .f32 := iblk m c 1 t
abbrev bblk (c : Dev nD) (t : Fin cfg0.N) : Vec F S1x1024 .f32 := iblk m c 2 t

/-- The printed index maps in closed form, decided once over the grid's 512 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The left operand's block at point `t`, at (p, k). -/
theorem xblk_apply (c : Dev nD) (t : Fin cfg0.N) (p : Fin 512) (k : Fin 2048) (r : Fin 8192) (kk : Fin 16384)
    (hr : r.val = 512 * (t.val / 32) + p.val) (hk : kk.val = 2048 * (t.val % 8) + k.val) :
    xblk m c t (ix2 p k) = xarr m c (ix2 r kk) := by
  obtain ⟨e0, e1, -⟩ := idx_facts t
  unfold xblk iblk
  rw [View.read_apply]
  show xarr m c _ = xarr m c _
  refine congrArg (xarr m c) (funext fun a => Fin.ext ?_)
  match a with
  | ⟨0, _⟩ => show win0_0.index t (0 : Fin 2) * 512 + 1 * p.val = r.val; omega
  | ⟨1, _⟩ => show win0_0.index t (1 : Fin 2) * 2048 + 1 * k.val = kk.val; omega

/-- The right operand's block at point `t`, at (q, k). -/
theorem wblk_apply (c : Dev nD) (t : Fin cfg0.N) (q : Fin 1024) (k : Fin 2048) (o : Fin 4096) (kk : Fin 16384)
    (ho : o.val = 1024 * (t.val / 8 % 4) + q.val) (hk : kk.val = 2048 * (t.val % 8) + k.val) :
    wblk m c t (ix2 q k) = warr m c (ix2 o kk) := by
  obtain ⟨-, -, e2, e3, -⟩ := idx_facts t
  unfold wblk iblk
  rw [View.read_apply]
  show warr m c _ = warr m c _
  refine congrArg (warr m c) (funext fun a => Fin.ext ?_)
  match a with
  | ⟨0, _⟩ => show win0_1.index t (0 : Fin 2) * 1024 + 1 * q.val = o.val; omega
  | ⟨1, _⟩ => show win0_1.index t (1 : Fin 2) * 2048 + 1 * k.val = kk.val; omega

/-- The bias block at point `t`, at (0, q). -/
theorem bblk_apply (c : Dev nD) (t : Fin cfg0.N) (q : Fin 1024) (o : Fin 4096)
    (ho : o.val = 1024 * (t.val / 8 % 4) + q.val) :
    bblk m c t (ix2 (0 : Fin 1) q) = brow m c (ix2 (0 : Fin 1) o) := by
  obtain ⟨-, -, -, -, e4, e5, -⟩ := idx_facts t
  unfold bblk iblk
  rw [View.read_apply]
  show brow m c _ = brow m c _
  refine congrArg (brow m c) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

end Cert.KernelIdeal.Blocks
end
-- ==== Proof.Accum.lean ====
/-
  The accumulator across the contraction steps, and the output block.

  Fix a row block `i` (of 16) and a column block `j` (of 4). The eight grid points `(i, j, 0) … (i, j, 7)` are
  consecutive, and over them the kernel keeps one 512 x 1024 accumulator. After step `s` its entry at (p, q)
  is the PREFIX of the dot product of row `512 i + p` of the left operand with row `1024 j + q` of the right
  one: the terms of contraction index below `2048 (s + 1)`. Step 0 starts from the cleared accumulator (the
  empty prefix), each later step adds the next 2048 terms to what the step before left. After step 7 the
  prefix is the whole dot product, and the output block is that plus the bias entry of column `1024 j + q`.
  Only associativity and commutativity of addition on the extended reals are used.
-/
import proofs.«171852_j46222438039739_1_alg».proof.Proof.BlockSum
import proofs.«171852_j46222438039739_1_alg».proof.Proof.Pieces
import proofs.«171852_j46222438039739_1_alg».proof.Proof.Payload
import proofs.«171852_j46222438039739_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Accum
open Cert.KernelIdeal Cert.KernelIdeal.Gen Cert.KernelIdeal.Blocks Cert.BlockSum
variable (m : (ℓ : Loc nD τ sig) → Buf (Elt Ideal) ℓ)

/-- Row `p` of row block `i`, in the 8192-row left operand. -/
def rowOf (i : ℕ) (hi : i < 16) (p : Fin 512) : Fin 8192 := ⟨512 * i + p.val, by have := p.isLt; omega⟩
/-- Column `q` of column block `j`, among the 4096 output columns. -/
def colOf (j : ℕ) (hj : j < 4) (q : Fin 1024) : Fin 4096 := ⟨1024 * j + q.val, by have := q.isLt; omega⟩

/-- The products summed along the contraction axis for output entry (r, o). -/
def term (c : Dev nD) (r : Fin 8192) (o : Fin 4096) (k : Fin 16384) : EReal := xarr m c (ix2 r k) * warr m c (ix2 o k)

/-- One step: the prefix of length `2048 s` plus the step's block of 2048 products is the prefix of length
    `2048 s + 2048`. -/
theorem step (c : Dev nD) (i j s : ℕ) (hi : i < 16) (hj : j < 4) (hs : s < 8) (t : Fin cfg0.N) (ht : t.val = (i * 4 + j) * 8 + s)
    (p : Fin 512) (q : Fin 1024) (prev : EReal) (hprev : prev = pre (term m c (rowOf i hi p) (colOf j hj q)) (2048 * s)) :
    prev + ∑ k : Fin 2048, xblk m c t (ix2 p k) * wblk m c t (ix2 q k)
      = pre (term m c (rowOf i hi p) (colOf j hj q)) (2048 * s + 2048) := by
  rw [pre_add_block _ (2048 * s) 2048 (by omega), hprev]
  refine congrArg (_ + ·) (Finset.sum_congr rfl fun k _ => ?_)
  have hk : k.val < 2048 := k.isLt
  have hp : p.val < 512 := p.isLt
  have hq : q.val < 1024 := q.isLt
  rw [xblk_apply m c t p k (rowOf i hi p) ⟨2048 * s + k.val, by omega⟩
      (by show 512 * i + p.val = 512 * (t.val / 32) + p.val; rw [ht]; omega)
      (by show 2048 * s + k.val = 2048 * (t.val % 8) + k.val; rw [ht]; omega),
    wblk_apply m c t q k (colOf j hj q) ⟨2048 * s + k.val, by omega⟩
      (by show 1024 * j + q.val = 1024 * (t.val / 8 % 4) + q.val; rw [ht]; omega)
      (by show 2048 * s + k.val = 2048 * (t.val % 8) + k.val; rw [ht]; omega)]
  rfl

/-- THE INVARIANT: after contraction step `s` of the run over (i, j), the accumulator at (p, q) is the prefix of
    length `2048 s + 2048`. By recursion on the step. -/
theorem acc_eq (c : Dev nD) (i j : ℕ) (hi : i < 16) (hj : j < 4) :
    ∀ (s : ℕ) (hs : s < 8) (t : Fin cfg0.N) (ht : t.val = (i * 4 + j) * 8 + s) (p : Fin 512) (q : Fin 1024),
      (outsAt0 m c t.val t.isLt).2 (ix2 p q) = pre (term m c (rowOf i hi p) (colOf j hj q)) (2048 * s + 2048)
  | 0, hs, t, ht, p, q => by
    have h0 : t.val % 8 = 0 := by omega
    have h1 : ¬t.val % 8 = 7 := by omega
    rw [outsAt0_A m c t h0 h1]
    dsimp only
    refine (congrFun (Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
    refine (Pay.update_apply (xblk m c t) (wblk m c t) (k0_pay1 (F := Ideal)) p q).trans ?_
    exact step m c i j 0 hi hj hs t ht p q _ ((Pay.cleared_apply (ix2 p q)).trans (pre_zero _).symm)
  | s + 1, hs, t, ht, p, q => by
    have h0 : ¬t.val % 8 = 0 := by omega
    have hlt : t.val - 1 < cfg0.N := Nat.lt_of_le_of_lt (Nat.sub_le _ _) t.isLt
    have ih := acc_eq c i j hi hj s (by omega) ⟨t.val - 1, hlt⟩ (by show t.val - 1 = _; omega) p q
    by_cases h1 : t.val % 8 = 7
    · rw [outsAt0_C m c t h0 h1]
      dsimp only
      refine (congrFun (Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) hlt).2) (ix2 p q)).trans ?_
      refine (Pay.update_apply (xblk m c t) (wblk m c t) (outsAt0 m c (t.val - 1) hlt).2 p q).trans ?_
      exact step m c i j (s + 1) hi hj hs t ht p q _ ih
    · rw [outsAt0_B m c t h0 h1]
      dsimp only
      refine (congrFun (Pieces.acc_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) hlt).2) (ix2 p q)).trans ?_
      refine (Pay.update_apply (xblk m c t) (wblk m c t) (outsAt0 m c (t.val - 1) hlt).2 p q).trans ?_
      exact step m c i j (s + 1) hi hj hs t ht p q _ ih

/-- THE OUTPUT BLOCK the last step of the run over (i, j) stores: at (p, q) the whole dot product plus the bias
    entry of the column. -/
theorem out_eq (c : Dev nD) (i j : ℕ) (hi : i < 16) (hj : j < 4) (t : Fin cfg0.N) (ht : t.val = (i * 4 + j) * 8 + 7)
    (p : Fin 512) (q : Fin 1024) :
    (outsAt0 m c t.val t.isLt).1 (ix2 p q)
      = (∑ k : Fin 16384, term m c (rowOf i hi p) (colOf j hj q) k) + brow m c (ix2 (0 : Fin 1) (colOf j hj q)) := by
  have h0 : ¬t.val % 8 = 0 := by omega
  have h1 : t.val % 8 = 7 := by omega
  have hlt : t.val - 1 < cfg0.N := Nat.lt_of_le_of_lt (Nat.sub_le _ _) t.isLt
  have ih := acc_eq m c i j hi hj 6 (by omega) ⟨t.val - 1, hlt⟩ (by show t.val - 1 = _; omega) p q
  have hq : q.val < 1024 := q.isLt
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) hlt).2) (ix2 p q)).trans ?_
  refine (Pay.output_apply (k0_pay2 (xblk m c t) (wblk m c t) (outsAt0 m c (t.val - 1) hlt).2) (bblk m c t) p q).trans ?_
  refine congrArg₂ (· + ·) ?_ (bblk_apply m c t q (colOf j hj q) (by show 1024 * j + q.val = 1024 * (t.val / 8 % 4) + q.val; rw [ht]; omega))
  refine (Pay.update_apply (xblk m c t) (wblk m c t) (outsAt0 m c (t.val - 1) hlt).2 p q).trans ?_
  refine (step m c i j 7 hi hj (by omega) t ht p q _ ih).trans ?_
  exact pre_full _

end Cert.KernelIdeal.Accum
end
-- ==== Proof.Spec.lean ====
/-
  The function both programs compute: a linear layer with bias.

  For an input X of shape [2, 4096, 16384], a weight W of shape [4096, 16384] and a bias B of shape [4096],
  the result at (b, s, o) is the dot product of X[b, s, :] with W[o, :] over the 16384 features, plus B[o],
  over the extended reals.
-/
import Idealize.ShloMosaic.PureOps.Ideal
import Idealize.ShloMosaic.Lib.ValueIdx

namespace Cert.Spec

open Idealize.ShloMosaic Idealize.ShloMosaic.ValueIdx

/-- The linear layer, index by index. -/
noncomputable def linear (X : (⟨3, ![2, 4096, 16384]⟩ : Shape).Idx → EReal) (W : (⟨2, ![4096, 16384]⟩ : Shape).Idx → EReal)
    (B : (⟨1, ![4096]⟩ : Shape).Idx → EReal) : (⟨3, ![2, 4096, 4096]⟩ : Shape).Idx → EReal := fun i =>
  (∑ k : Fin 16384, X (ix3 (⟨(i 0).val, (i 0).isLt⟩ : Fin 2) (⟨(i 1).val, (i 1).isLt⟩ : Fin 4096) k)
      * W (ix2 (⟨(i 2).val, (i 2).isLt⟩ : Fin 4096) k))
    + B (ix1 (⟨(i 2).val, (i 2).isLt⟩ : Fin 4096))

/-- At explicit coordinates. -/
theorem linear_apply (X : (⟨3, ![2, 4096, 16384]⟩ : Shape).Idx → EReal) (W : (⟨2, ![4096, 16384]⟩ : Shape).Idx → EReal)
    (B : (⟨1, ![4096]⟩ : Shape).Idx → EReal) (b : Fin 2) (s : Fin 4096) (o : Fin 4096) :
    linear X W B (ix3 b s o) = (∑ k : Fin 16384, X (ix3 b s k) * W (ix2 o k)) + B (ix1 o) := rfl

end Cert.Spec
-- ==== Proof.RunValue.lean ====
/-
  What the idealized kernel's program leaves in its result.

  The 8192 x 4096 product array is written back one 512 x 1024 block per pair (row block, column block), at
  the last contraction step of that pair's run, and those 64 blocks tile it. Each written block holds, at
  (p, q), the whole dot product of the operands' rows plus the bias entry (the accumulator invariant). So the
  array ends, at (r, o), at the dot product of row r of the left operand with row o of the right one, plus
  the bias at o. The host lines around the region only re-lay memory: before it, the input's two leading
  axes are merged and the bias is given a unit leading axis; after it, the product's rows are split back
  into the two leading axes. Read through those, the program's result is the linear layer of its arguments.
-/
import proofs.«171852_j46222438039739_1_alg».proof.Proof.Accum
import proofs.«171852_j46222438039739_1_alg».proof.Proof.Spec
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RunValue
open Cert.KernelIdeal Cert.KernelIdeal.Gen Cert.KernelIdeal.Blocks Cert.KernelIdeal.Accum
variable (m : (ℓ : Loc nD τ sig) → Buf (Elt Ideal) ℓ) (ρ : Dev nD → PrngReg)

/-- The product array: at (r, o) the dot product of the operands' rows plus the bias at o. -/
def prod (c : Dev nD) : Vec Ideal S8192x4096 .f32 := fun i =>
  (∑ k : Fin 16384, term m c (⟨(i 0).val, (i 0).isLt⟩ : Fin 8192) (⟨(i 1).val, (i 1).isLt⟩ : Fin 4096) k)
    + brow m c (ix2 (0 : Fin 1) (⟨(i 1).val, (i 1).isLt⟩ : Fin 4096))

/-- At an index whose coordinates are r and o. -/
theorem prod_apply (c : Dev nD) (r : Fin 8192) (o : Fin 4096) (i : S8192x4096.Idx) (h0 : (i 0).val = r.val) (h1 : (i 1).val = o.val) :
    prod m c i = (∑ k : Fin 16384, term m c r o k) + brow m c (ix2 (0 : Fin 1) o) := by
  have e0 : (⟨(i 0).val, (i 0).isLt⟩ : Fin 8192) = r := Fin.ext h0
  have e1 : (⟨(i 1).val, (i 1).isLt⟩ : Fin 4096) = o := Fin.ext h1
  unfold prod
  rw [e0, e1]

/-- What a writing point writes back is its block of the product array. -/
theorem flushed_eq (c : Dev nD) (t : Fin cfg0.N) (hf : (cfg0.win 3).flush t = true) :
    (dats m 0 c).flushed 3 t = ((cfg0.win 3).blk t).view.read (Elt Ideal) (prod m c) := by
  have h7 : t.val % 8 = 7 := (flush0_3 t).mp hf
  have hN : t.val < 512 := lt_of_lt_of_eq t.isLt (show cfg0.N = 512 from N_0)
  obtain ⟨-, -, -, -, -, -, e6, e7⟩ := idx_facts t
  show (cfg0.win 3).cut (grid0.coords t) ((dats m 0 c).after 3 t) = _
  rw [after0_3]
  funext y
  obtain ⟨p, q, rfl⟩ : ∃ (p : Fin 512) (q : Fin 1024), y = ix2 p q := ⟨y 0, y 1, eq_ix2 y⟩
  show (outsAt0 m c t.val t.isLt).1 (ix2 p q) = prod m c (((cfg0.win 3).blk t).view.emb (ix2 p q))
  have hp : p.val < 512 := p.isLt
  have hq : q.val < 1024 := q.isLt
  refine (out_eq m c (t.val / 32) (t.val / 8 % 4) (by omega) (by omega) t (by omega) p q).trans
    (prod_apply m c _ _ _ ?_ ?_).symm
  · show win0_3.index t (0 : Fin 2) * 512 + 1 * p.val = 512 * (t.val / 32) + p.val; omega
  · show win0_3.index t (1 : Fin 2) * 1024 + 1 * q.val = 1024 * (t.val / 8 % 4) + q.val; omega

/-- Every index of the product array lies in the block of the writing point of its row block and column block. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 512 := N_0
  obtain ⟨t, hv⟩ : ∃ t : Fin cfg0.N, t.val = ((i 0).val / 512 * 4 + (i 1).val / 1024) * 8 + 7 :=
    ⟨⟨((i 0).val / 512 * 4 + (i 1).val / 1024) * 8 + 7, by rw [hN]; omega⟩, rfl⟩
  obtain ⟨-, -, -, -, -, -, e6, e7⟩ := idx_facts t
  refine ⟨t, (flush0_3 t).mpr (by omega), ?_⟩
  show i ∈ ((View.whole main_v2).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- So the product array ends at `prod`. -/
theorem final_prod (c : Dev nD) : (dats m 0 c).arrAt 3 cfg0.N = prod m c :=
  (dats m 0 c).arrAt_eq_of_cover 3 (prod m c) (flushed_eq m c) cover

/-- The program's result: the product array with its rows split back into the two leading axes. -/
def result (c : Dev nD) : Vec Ideal S2x4096x4096 .f32 :=
  shapeCast S2x4096x4096 (prod m c) shapeCasts_S8192x4096_S2x4096x4096

/-- The host line after the region leaves exactly that in the result buffer. -/
theorem tail_eq (c : Dev nD) : Pipeline.afterTail₀ cfgs (dats m) 0 (V0 m) [hostOps1] c main_v3 = result m c := by
  have e : Pipeline.withArrays (cfgs 0).spec c (V0 m c) (fun w => (dats m 0 c).arrAt w (cfgs 0).N) (Proc.devRef .tc main_v2) = prod m c :=
    (Pipeline.withArrays_arr spec0 launch0.win.arr_inj c _ _ 3).trans (final_prod m c)
  unfold Pipeline.afterTail₀
  show StableHlo.after hostOps1 _ (Proc.devRef .tc main_v3) = _
  after_results
  rw [e]
  rfl

/-- The left operand the region finds is the input with its two leading axes merged, -/
theorem xarr_eq (c : Dev nD) :
    xarr m c = shapeCast S8192x16384 (m ((c : Thread nD τ).loc main_arg0)) shapeCasts_S2x4096x16384_S8192x16384 := by
  show StableHlo.after hostOps0 (fun b => m (c, b)) (Proc.devRef .tc main_v0) = _
  after_results
  rfl
/-- the bias row is the bias with a unit leading axis, -/
theorem brow_eq (c : Dev nD) :
    brow m c = shapeCast S1x4096 (m ((c : Thread nD τ).loc main_arg2)) shapeCasts_S4096_S1x4096 := by
  show StableHlo.after hostOps0 (fun b => m (c, b)) (Proc.devRef .tc main_v1) = _
  after_results
  rfl
/-- and the right operand is the weight as launched. -/
theorem warr_eq (c : Dev nD) : warr m c = m ((c : Thread nD τ).loc main_arg1) := V_main_arg1 m c

/-- Row `4096 b + s` of the merged input at column k is the input at (b, s, k). -/
theorem xarr_apply (c : Dev nD) (b : Fin 2) (s : Fin 4096) (k : Fin 16384) (r : Fin 8192) (hr : r.val = b.val * 4096 + s.val) :
    xarr m c (ix2 r k) = (m ((c : Thread nD τ).loc main_arg0) : Vec Ideal S2x4096x16384 .f32) (ix3 b s k) := by
  rw [xarr_eq]
  refine shapeCast_apply _ _ (ix2 r k) (ix3 b s k) ?_
  rw [Shape.rowMajor_val_three, Shape.rowMajor_val_two]
  show (b.val * 4096 + s.val) * 16384 + k.val = r.val * 16384 + k.val
  rw [hr]

/-- The bias row at (0, o) is the bias at o. -/
theorem brow_apply (c : Dev nD) (o : Fin 4096) :
    brow m c (ix2 (0 : Fin 1) o) = (m ((c : Thread nD τ).loc main_arg2) : Vec Ideal S4096 .f32) (ix1 o) := by
  rw [brow_eq]
  exact shapeCast_a_1a_apply _ _ (0 : Fin 1) o

/-- THE RESULT is the linear layer of the three arguments as launched. -/
theorem result_eq (c : Dev nD) :
    result m c = Cert.Spec.linear (m ((c : Thread nD τ).loc main_arg0)) (m ((c : Thread nD τ).loc main_arg1)) (m ((c : Thread nD τ).loc main_arg2)) := by
  funext i
  obtain ⟨b, s, o, rfl⟩ : ∃ (b : Fin 2) (s : Fin 4096) (o : Fin 4096), i = ix3 b s o := ⟨i 0, i 1, i 2, eq_ix3 i⟩
  have hb : b.val < 2 := b.isLt
  have hs : s.val < 4096 := s.isLt
  rw [Cert.Spec.linear_apply]
  unfold result
  refine (shapeCast_apply (prod m c) _ (ix3 b s o) (ix2 (⟨b.val * 4096 + s.val, by omega⟩ : Fin 8192) o) (by
    rw [Shape.rowMajor_val_three, Shape.rowMajor_val_two]; rfl)).trans ?_
  refine (prod_apply m c (⟨b.val * 4096 + s.val, by omega⟩ : Fin 8192) o _ rfl rfl).trans ?_
  refine congrArg₂ (· + ·) (Finset.sum_congr rfl fun k _ => ?_) (brow_apply m c o)
  unfold term
  rw [xarr_apply m c b s k _ rfl, warr_eq]

/-- THE RUN, read: every weakly fair execution ends with the result buffer at the linear layer of the arguments
    and the arguments unchanged. -/
theorem run : θ_run defs (onTc (τ := τ) (main (F := Ideal))) ⟨m, fun _ => 0, ρ⟩ fun r => ∀ c : Dev nD,
      r.2.mem ((c.tc : Thread nD τ).loc main_v3)
        = Cert.Spec.linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v3 (Pipeline.mem_restRefs_of main_v3 (by decide) (by decide))).trans (tail_eq m c)).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue
end
-- ==== Proof.RefValue.lean ====
/-
  The reference computes the linear layer.

  The reference is a contraction of the input's last axis with the weight's last axis, plus the bias
  broadcast over the two leading axes. Read at (b, s, o) that is the dot product of X[b, s, :] with W[o, :]
  plus B[o]: the specification, with nothing to rearrange.
-/
import proofs.«171852_j46222438039739_1_alg».proof.Defs
import proofs.«171852_j46222438039739_1_alg».proof.Proof.Gen.ReferenceIdeal.Run
import proofs.«171852_j46222438039739_1_alg».proof.Proof.Gen.ReferenceIdeal.Read
import proofs.«171852_j46222438039739_1_alg».proof.Proof.Spec

noncomputable section

open Idealize.ShloMosaic Idealize.ShloMosaic.TcCoe Idealize.SL.Sem Idealize.ShloMosaic.ValueIdx

namespace Cert.ReferenceIdeal.RefValue
open Cert.ReferenceIdeal Cert.ReferenceIdeal.Gen Cert.ReferenceIdeal.Read

/-- The contraction reads the input at (b, s, k), -/
theorem lidx_eq (b : Fin 2) (s o : Fin 4096) (k : Fin 16384) : lidx_main_v0 (ix3 b s o) k = ix3 b s k :=
  funext fun a => Fin.ext (by match a with | ⟨0, _⟩ => rfl | ⟨1, _⟩ => rfl | ⟨2, _⟩ => rfl)
/-- the weight at (o, k), -/
theorem ridx_eq (b : Fin 2) (s o : Fin 4096) (k : Fin 16384) : ridx_main_v0 (ix3 b s o) k = ix2 o k :=
  funext fun a => Fin.ext (by match a with | ⟨0, _⟩ => rfl | ⟨1, _⟩ => rfl)
/-- and the two broadcasts read the bias at o. -/
theorem bidx_eq (b : Fin 2) (s o : Fin 4096) : idx_main_v1 (idx_main_v2 (ix3 b s o)) = ix1 o :=
  funext fun a => Fin.ext (by match a with | ⟨0, _⟩ => rfl)

/-- The reference's result is the linear layer of its three arguments. -/
theorem ref_eq (x0 : (⟨S2x4096x16384, .f32⟩ : BufTy).Contents (Elt Ideal)) (x1 : (⟨S4096x16384, .f32⟩ : BufTy).Contents (Elt Ideal))
    (x2 : (⟨S4096, .f32⟩ : BufTy).Contents (Elt Ideal)) :
    val_main_v3 (F := Ideal) x0 x1 x2 = Cert.Spec.linear x0 x1 x2 := by
  funext i
  obtain ⟨b, s, o, rfl⟩ : ∃ (b : Fin 2) (s : Fin 4096) (o : Fin 4096), i = ix3 b s o := ⟨i 0, i 1, i 2, eq_ix3 i⟩
  rw [val_main_v3_apply, val_main_v0_apply, val_main_v2_apply, val_main_v1_apply, Cert.Spec.linear_apply]
  simp only [lidx_eq, ridx_eq, bidx_eq]
  rfl

end Cert.ReferenceIdeal.RefValue
end
-- ==== Proof.lean ====
/-
  A row-parallel linear layer with bias, tiled for the matrix unit, against its one-line reference.

  THE KERNEL. The input [2, 4096, 16384] is viewed as 8192 rows of 16384 features; the weight is
  [4096, 16384]; the bias [4096]. The grid is 16 row blocks x 4 column blocks x 8 contraction steps. At each
  step the body rounds a 512 x 2048 block of the input and a 1024 x 2048 block of the weight to bf16,
  multiplies them (contracting the 2048 features of the step) and adds the product into a 512 x 1024 f32
  accumulator that it cleared at the first step; at the last step it adds the bias row and stores the
  512 x 1024 output block. The 8192 x 4096 product is then split back to [2, 4096, 4096].

  THE REFERENCE contracts the input's feature axis with the weight's feature axis in one product and adds
  the broadcast bias.

  WHY THEY AGREE over the extended reals: there rounding to bf16 is the identity and every product and sum
  is exact, so the kernel's accumulator after step s is the prefix of the dot product over the first
  2048 (s + 1) features, the prefix after the eighth step is the whole dot product, and adding the bias
  gives the reference's value at every (b, s, o). Cutting a finite sum into consecutive blocks only uses
  that addition is associative and commutative, which holds on the extended reals with the infinities
  included: finiteness of the inputs is not needed and the precondition is never opened.

  The three frames are the generated frame certificates (the reference's is its generated run with the
  value dropped); the ideal pass rewrote nothing, so the idealization claim is trivially true.
-/
import proofs.«171852_j46222438039739_1_alg».proof.Defs
import proofs.«171852_j46222438039739_1_alg».proof.Proof.Gen.Kernel
import proofs.«171852_j46222438039739_1_alg».proof.Proof.Gen.Kernel.Frame
import proofs.«171852_j46222438039739_1_alg».proof.Proof.Gen.KernelIdeal
import proofs.«171852_j46222438039739_1_alg».proof.Proof.Gen.KernelIdeal.Frame
import proofs.«171852_j46222438039739_1_alg».proof.Proof.Gen.ReferenceIdeal
import proofs.«171852_j46222438039739_1_alg».proof.Proof.Gen.ReferenceIdeal.Run
import proofs.«171852_j46222438039739_1_alg».proof.Proof.Gen.ReferenceIdeal.Read
import proofs.«171852_j46222438039739_1_alg».proof.Proof.Gen.Pre_finite_inputs
import proofs.«171852_j46222438039739_1_alg».proof.Proof.RunValue
import proofs.«171852_j46222438039739_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the linear layer of arguments that agree. -/
theorem algebraic : Cert.algebraic_KernelIdeal_ReferenceIdeal := by
  intro m ρ m' ρ' _ hagree
  refine ⟨fun c => Cert.Spec.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
